-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128 .f32) (main_arg6 : FVec F S128x8 .f32) (main_arg7 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x8 : Shape := ⟨2, ![1, 8]⟩
abbrev S100000x8 : Shape := ⟨2, ![100000, 8]⟩
abbrev S5000x8 : Shape := ⟨2, ![5000, 8]⟩
abbrev S5000 : Shape := ⟨1, ![5000]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S1x8, .f32⟩
  | .hbm, ⟨85, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x8, .f32⟩
  | .local _ .vmem, ⟨15, _⟩ => ⟨S1x8, .f32⟩
  | .local _ .vmem, ⟨16, _⟩ => ⟨S5000x8, .f32⟩
  | .local _ .vmem, ⟨17, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x8.size a ≤ S100000x8.size a
  hwx2_4 : ∀ i : grid2.Coords, EltTy.bits .f32 = 32 ∨ (Rect.block (s := S100000x8) S5000x8.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x8, .f32⟩
  | .hbm, ⟨95, _⟩ => ⟨S1x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x8, .f32⟩
  | .hbm, ⟨105, _⟩ => ⟨S100000x8, .f32⟩
  | .hbm, ⟨106, _⟩ => ⟨S100000x8, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x8, .f32⟩
  | .hbm, ⟨111, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.Stretch.lean ====
import proofs.«146957_j73504070303824_1_alg».proof.Proof.Gen.KernelIdeal.Frame
import proofs.«146957_j73504070303824_1_alg».proof.Proof.RefRead
import Idealize.ShloMosaic.Lib.StableHlo.Run
import Idealize.ShloMosaic.Lib.Pipeline.Value

set_option maxRecDepth 16384

noncomputable section

/-! The program's host stretches, each read over ANY buffer contents `U` it is entered from: the stretches are the
    reference's own operations (the edge lists with the self loops appended, the symmetric normalisation, and per layer
    gather, scale by the edge weight, scatter-add into the destination rows, the bias as one row), so a buffer a stretch
    writes is the reference's stage of the arguments once the buffers it reads are. -/

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP

variable (U : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x7 : (⟨Cert.ReferenceIdeal.S8, .f32⟩ : BufTy).Contents (Elt Ideal))

/-! ## The first stretch: the edge lists, the degrees -/

/-- The source list with the self loops appended. -/
theorem s0_v3 (h1 : U (Proc.devRef .tc main_arg1) = x1) : StableHlo.after (hostOps0 (F := Ideal)) U (Proc.devRef .tc main_v3) = val_main_v3 (F := Ideal) x1 := by
  subst h1; dsimp only [hostOps0]; after_results; rfl

/-- The destination list with the self loops appended. -/
theorem s0_v6 (h1 : U (Proc.devRef .tc main_arg1) = x1) : StableHlo.after (hostOps0 (F := Ideal)) U (Proc.devRef .tc main_v6) = val_main_v6 (F := Ideal) x1 := by
  subst h1; dsimp only [hostOps0]; after_results; rfl

/-- Which nodes have a positive degree. -/
theorem s0_v12 (h1 : U (Proc.devRef .tc main_arg1) = x1) : StableHlo.after (hostOps0 (F := Ideal)) U (Proc.devRef .tc main_v12) = val_main_v12 (F := Ideal) x1 := by
  subst h1; dsimp only [hostOps0]; after_results; rfl

/-- The inverse square roots of the degrees. -/
theorem s0_v13 (h1 : U (Proc.devRef .tc main_arg1) = x1) : StableHlo.after (hostOps0 (F := Ideal)) U (Proc.devRef .tc main_v13) = val_main_v13 (F := Ideal) x1 := by
  subst h1; dsimp only [hostOps0]; after_results; rfl

theorem s0_cst2 : StableHlo.after (hostOps0 (F := Ideal)) U (Proc.devRef .tc main_cst_2) = val_main_cst_2 (F := Ideal) := by
  dsimp only [hostOps0]; after_results; rfl

/-! ## The second stretch: zero where the degree is zero -/

theorem s01_v14 (h12 : U (Proc.devRef .tc main_v12) = val_main_v12 (F := Ideal) x1) (h13 : U (Proc.devRef .tc main_v13) = val_main_v13 (F := Ideal) x1)
    (hc : U (Proc.devRef .tc main_cst_2) = val_main_cst_2 (F := Ideal)) :
    StableHlo.after (hostOps0_1 (F := Ideal)) U (Proc.devRef .tc main_v14) = val_main_v14 (F := Ideal) x1 := by
  dsimp only [hostOps0_1]
  after_results
  try simp only [TRef.ofBuf, TRef.toBuf, cast_eq]
  rw [h12, h13, hc]
  rfl

/-! ## The third stretch: the edge weights -/

set_option maxHeartbeats 2000000 in
theorem s02_v29 (h14 : U (Proc.devRef .tc main_v14) = val_main_v14 (F := Ideal) x1) (h3 : U (Proc.devRef .tc main_v3) = val_main_v3 (F := Ideal) x1)
    (h6 : U (Proc.devRef .tc main_v6) = val_main_v6 (F := Ideal) x1) :
    StableHlo.after (hostOps0_2 (F := Ideal)) U (Proc.devRef .tc main_v29) = val_main_v29 (F := Ideal) x1 := by
  dsimp only [hostOps0_2]
  after_results_simp
  rw [h14, h3, h6]
  rfl

/-! ## Between the first and the second region -/

set_option maxHeartbeats 2000000 in
/-- The first layer's aggregate: the gathered rows scaled by the edge weights, added into the destination rows. -/
theorem s1_v43 (h30 : U (Proc.devRef .tc main_v30) = val_main_v30 (F := Ideal) x0 x2) (h3 : U (Proc.devRef .tc main_v3) = val_main_v3 (F := Ideal) x1)
    (h6 : U (Proc.devRef .tc main_v6) = val_main_v6 (F := Ideal) x1) (h29 : U (Proc.devRef .tc main_v29) = val_main_v29 (F := Ideal) x1) :
    StableHlo.after (hostOps1 (F := Ideal)) U (Proc.devRef .tc main_v43) = val_main_v43 (F := Ideal) x0 x1 x2 := by
  dsimp only [hostOps1]
  after_results_simp
  rw [h30, h3, h6, h29]
  rfl

/-- A vector recast as one row is the vector broadcast along a new leading axis of length one. -/
theorem row_of_vec {n : Nat} (hn : n ≠ 1) (x : (⟨1, ![n]⟩ : Shape).Idx → EReal) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x := by
  funext i
  refine (shapeCast_addUnit_apply ![n] x h i).trans ?_
  refine (broadcastInDim_apply ![1] hb x i (fun a => i a.succ) (fun a => ?_)).symm
  match a with
  | ⟨0, _⟩ => show (i 1).val = if n = 1 then 0 else (i 1).val; rw [if_neg hn]

set_option maxHeartbeats 2000000 in
/-- The first bias as one row. -/
theorem s1_v44 (h : U (Proc.devRef .tc main_arg3) = x3) : StableHlo.after (hostOps1 (F := Ideal)) U (Proc.devRef .tc main_v44) = val_main_v44 (F := Ideal) x3 := by
  subst h
  dsimp only [hostOps1]
  after_results_simp
  unfold val_main_v44
  exact row_of_vec (by decide) _ _ _

/-! ## Between the second and the third region -/

set_option maxHeartbeats 2000000 in
/-- The second layer's aggregate. -/
theorem s2_v58 (h45 : U (Proc.devRef .tc main_v45) = val_main_v48 (F := Ideal) x0 x1 x2 x3 x4) (h3 : U (Proc.devRef .tc main_v3) = val_main_v3 (F := Ideal) x1)
    (h6 : U (Proc.devRef .tc main_v6) = val_main_v6 (F := Ideal) x1) (h29 : U (Proc.devRef .tc main_v29) = val_main_v29 (F := Ideal) x1) :
    StableHlo.after (hostOps2 (F := Ideal)) U (Proc.devRef .tc main_v58) = val_main_v61 (F := Ideal) x0 x1 x2 x3 x4 := by
  dsimp only [hostOps2]
  after_results_simp
  rw [h45, h3, h6, h29]
  rfl

set_option maxHeartbeats 2000000 in
/-- The second bias as one row. -/
theorem s2_v59 (h : U (Proc.devRef .tc main_arg5) = x5) : StableHlo.after (hostOps2 (F := Ideal)) U (Proc.devRef .tc main_v59) = val_main_v62 (F := Ideal) x5 := by
  subst h
  dsimp only [hostOps2]
  after_results_simp
  unfold val_main_v62
  exact row_of_vec (by decide) _ _ _

set_option maxHeartbeats 2000000 in
/-- The output bias as one row. -/
theorem s2_v60 (h : U (Proc.devRef .tc main_arg7) = x7) : StableHlo.after (hostOps2 (F := Ideal)) U (Proc.devRef .tc main_v60) = val_main_v67 (F := Ideal) x7 := by
  subst h
  dsimp only [hostOps2]
  after_results_simp
  unfold val_main_v67
  exact row_of_vec (by decide) _ _ _

/-! ## What a stretch does not write it leaves -/

theorem k0_arg0 : StableHlo.after (hostOps0 (F := Ideal)) U (Proc.devRef .tc main_arg0) = U (Proc.devRef .tc main_arg0) := by
  dsimp only [hostOps0]; after_results

theorem k0_arg2 : StableHlo.after (hostOps0 (F := Ideal)) U (Proc.devRef .tc main_arg2) = U (Proc.devRef .tc main_arg2) := by
  dsimp only [hostOps0]; after_results

theorem k0_arg3 : StableHlo.after (hostOps0 (F := Ideal)) U (Proc.devRef .tc main_arg3) = U (Proc.devRef .tc main_arg3) := by
  dsimp only [hostOps0]; after_results

theorem k0_arg4 : StableHlo.after (hostOps0 (F := Ideal)) U (Proc.devRef .tc main_arg4) = U (Proc.devRef .tc main_arg4) := by
  dsimp only [hostOps0]; after_results

theorem k0_arg5 : StableHlo.after (hostOps0 (F := Ideal)) U (Proc.devRef .tc main_arg5) = U (Proc.devRef .tc main_arg5) := by
  dsimp only [hostOps0]; after_results

theorem k0_arg6 : StableHlo.after (hostOps0 (F := Ideal)) U (Proc.devRef .tc main_arg6) = U (Proc.devRef .tc main_arg6) := by
  dsimp only [hostOps0]; after_results

theorem k0_arg7 : StableHlo.after (hostOps0 (F := Ideal)) U (Proc.devRef .tc main_arg7) = U (Proc.devRef .tc main_arg7) := by
  dsimp only [hostOps0]; after_results

theorem k1_arg4 : StableHlo.after (hostOps1 (F := Ideal)) U (Proc.devRef .tc main_arg4) = U (Proc.devRef .tc main_arg4) := by
  dsimp only [hostOps1]; after_results

theorem k1_arg5 : StableHlo.after (hostOps1 (F := Ideal)) U (Proc.devRef .tc main_arg5) = U (Proc.devRef .tc main_arg5) := by
  dsimp only [hostOps1]; after_results

theorem k1_arg6 : StableHlo.after (hostOps1 (F := Ideal)) U (Proc.devRef .tc main_arg6) = U (Proc.devRef .tc main_arg6) := by
  dsimp only [hostOps1]; after_results

theorem k1_arg7 : StableHlo.after (hostOps1 (F := Ideal)) U (Proc.devRef .tc main_arg7) = U (Proc.devRef .tc main_arg7) := by
  dsimp only [hostOps1]; after_results

theorem k1_v3 : StableHlo.after (hostOps1 (F := Ideal)) U (Proc.devRef .tc main_v3) = U (Proc.devRef .tc main_v3) := by
  dsimp only [hostOps1]; after_results

theorem k1_v6 : StableHlo.after (hostOps1 (F := Ideal)) U (Proc.devRef .tc main_v6) = U (Proc.devRef .tc main_v6) := by
  dsimp only [hostOps1]; after_results

theorem k1_v29 : StableHlo.after (hostOps1 (F := Ideal)) U (Proc.devRef .tc main_v29) = U (Proc.devRef .tc main_v29) := by
  dsimp only [hostOps1]; after_results

theorem k2_arg6 : StableHlo.after (hostOps2 (F := Ideal)) U (Proc.devRef .tc main_arg6) = U (Proc.devRef .tc main_arg6) := by
  dsimp only [hostOps2]; after_results

theorem k0_1_arg0 : StableHlo.after (hostOps0_1 (F := Ideal)) U (Proc.devRef .tc main_arg0) = U (Proc.devRef .tc main_arg0) := by
  dsimp only [hostOps0_1]; after_results

theorem k0_1_arg2 : StableHlo.after (hostOps0_1 (F := Ideal)) U (Proc.devRef .tc main_arg2) = U (Proc.devRef .tc main_arg2) := by
  dsimp only [hostOps0_1]; after_results

theorem k0_1_arg3 : StableHlo.after (hostOps0_1 (F := Ideal)) U (Proc.devRef .tc main_arg3) = U (Proc.devRef .tc main_arg3) := by
  dsimp only [hostOps0_1]; after_results

theorem k0_1_arg4 : StableHlo.after (hostOps0_1 (F := Ideal)) U (Proc.devRef .tc main_arg4) = U (Proc.devRef .tc main_arg4) := by
  dsimp only [hostOps0_1]; after_results

theorem k0_1_arg5 : StableHlo.after (hostOps0_1 (F := Ideal)) U (Proc.devRef .tc main_arg5) = U (Proc.devRef .tc main_arg5) := by
  dsimp only [hostOps0_1]; after_results

theorem k0_1_arg6 : StableHlo.after (hostOps0_1 (F := Ideal)) U (Proc.devRef .tc main_arg6) = U (Proc.devRef .tc main_arg6) := by
  dsimp only [hostOps0_1]; after_results

theorem k0_1_arg7 : StableHlo.after (hostOps0_1 (F := Ideal)) U (Proc.devRef .tc main_arg7) = U (Proc.devRef .tc main_arg7) := by
  dsimp only [hostOps0_1]; after_results

theorem k0_1_v3 : StableHlo.after (hostOps0_1 (F := Ideal)) U (Proc.devRef .tc main_v3) = U (Proc.devRef .tc main_v3) := by
  dsimp only [hostOps0_1]; after_results

theorem k0_1_v6 : StableHlo.after (hostOps0_1 (F := Ideal)) U (Proc.devRef .tc main_v6) = U (Proc.devRef .tc main_v6) := by
  dsimp only [hostOps0_1]; after_results

theorem k0_2_arg0 : StableHlo.after (hostOps0_2 (F := Ideal)) U (Proc.devRef .tc main_arg0) = U (Proc.devRef .tc main_arg0) := by
  dsimp only [hostOps0_2]; after_results

theorem k0_2_arg2 : StableHlo.after (hostOps0_2 (F := Ideal)) U (Proc.devRef .tc main_arg2) = U (Proc.devRef .tc main_arg2) := by
  dsimp only [hostOps0_2]; after_results

theorem k0_2_arg3 : StableHlo.after (hostOps0_2 (F := Ideal)) U (Proc.devRef .tc main_arg3) = U (Proc.devRef .tc main_arg3) := by
  dsimp only [hostOps0_2]; after_results

theorem k0_2_arg4 : StableHlo.after (hostOps0_2 (F := Ideal)) U (Proc.devRef .tc main_arg4) = U (Proc.devRef .tc main_arg4) := by
  dsimp only [hostOps0_2]; after_results

theorem k0_2_arg5 : StableHlo.after (hostOps0_2 (F := Ideal)) U (Proc.devRef .tc main_arg5) = U (Proc.devRef .tc main_arg5) := by
  dsimp only [hostOps0_2]; after_results

theorem k0_2_arg6 : StableHlo.after (hostOps0_2 (F := Ideal)) U (Proc.devRef .tc main_arg6) = U (Proc.devRef .tc main_arg6) := by
  dsimp only [hostOps0_2]; after_results

theorem k0_2_arg7 : StableHlo.after (hostOps0_2 (F := Ideal)) U (Proc.devRef .tc main_arg7) = U (Proc.devRef .tc main_arg7) := by
  dsimp only [hostOps0_2]; after_results

theorem k0_2_v3 : StableHlo.after (hostOps0_2 (F := Ideal)) U (Proc.devRef .tc main_v3) = U (Proc.devRef .tc main_v3) := by
  dsimp only [hostOps0_2]; after_results

theorem k0_2_v6 : StableHlo.after (hostOps0_2 (F := Ideal)) U (Proc.devRef .tc main_v6) = U (Proc.devRef .tc main_v6) := by
  dsimp only [hostOps0_2]; after_results

end Cert.KernelIdeal.Stretch

end
-- ==== Proof.Region0.lean ====
import proofs.«146957_j73504070303824_1_alg».proof.Proof.Gen.KernelIdeal.Frame
import proofs.«146957_j73504070303824_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-! ## The product of a row block with the weight, entry by entry -/

/-- The whole-buffer rectangle's offsets are all zero. -/
theorem zero_offsets : (![0, 0] : Fin 2 → Nat) = fun _ => 0 := funext fun a => by fin_cases a <;> rfl

/-- The left operand's row at an output entry is the entry's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column at an output entry is the entry's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of what the body stores is the sum over k of x (p, k) · w (k, q): the format changes are the identity on
    extended reals and the accumulator is the zero splat. -/
theorem product_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  show FloatOps.matmul dot_S5000x128_S128x128_S5000x128_1_0_0_1_n_n none (truncf (F := Ideal) .bf16 x bitsLt_bf16_f32) (truncf (F := Ideal) .bf16 w bitsLt_bf16_f32)
      (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## Where each block sits in its array -/

/-- The printed index maps over the grid: the input's and the result's row blocks are the point's, the weight is whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the twenty row blocks is some point's. -/
theorem block_onto : ∀ q : Fin 20, ∃ t : Fin cfg0.N, win0_2.index t = ![q.val, 0] :=
  (by decide +kernel : ∀ q : Fin 20, ∃ t : Fin grid0.N, win0_2.index t = ![q.val, 0])

/-- Entry (p, k) of the input's block at point t is entry (5000 t + p, k) of the input. -/
theorem input_block_emb (t : Fin cfg0.N) (p : Fin 5000) (k : Fin 128) (i : S100000x128.Idx)
    (hr : (i 0).val = t.val * 5000 + p.val) (hc : (i 1).val = k.val) :
    ((cfg0.win 0).blk t).view.emb (ix2 p k) = i := by
  obtain ⟨e0, e1, -, -, -, -⟩ := block_indices t
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- Entry (k, q) of the weight's block at any point is entry (k, q) of the weight. -/
theorem weight_block_emb (t : Fin cfg0.N) (k : Fin 128) (q : Fin 128) (i : S128x128.Idx)
    (hr : (i 0).val = k.val) (hc : (i 1).val = q.val) :
    ((cfg0.win 1).blk t).view.emb (ix2 k q) = i := by
  obtain ⟨-, -, e2, e3, -, -⟩ := block_indices t
  funext a; apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-- Entry (p, q) of the result's block at point t is entry (5000 t + p, q) of the result. -/
theorem result_block_emb_val (t : Fin cfg0.N) (p : Fin 5000) (q : Fin 128) :
    ((((cfg0.win 2).blk t).view.emb (ix2 p q)) 0).val = t.val * 5000 + p.val
    ∧ ((((cfg0.win 2).blk t).view.emb (ix2 p q)) 1).val = q.val := by
  obtain ⟨-, -, -, -, e4, e5⟩ := block_indices t
  constructor
  · show win0_2.index t (0 : Fin 2) * 5000 + 1 * p.val = _; omega
  · show win0_2.index t (1 : Fin 2) * 128 + 1 * q.val = _; omega

/-! ## What a point writes back -/

/-- What point t writes back is block t of the product of the whole input with the weight. -/
theorem written_block_eq (V : (c : Dev nD) → (b : Ref sig .tc) → Buf (Elt Ideal) ((c : Thread nD τ).loc b)) (c : Dev nD)
    (x0 : (⟨Cert.ReferenceIdeal.S100000x128, .f32⟩ : BufTy).Contents (Elt Ideal)) (x2 : (⟨Cert.ReferenceIdeal.S128x128, .f32⟩ : BufTy).Contents (Elt Ideal))
    (h0 : V c main_arg0 = x0) (h2 : V c main_arg2 = x2) (t : Fin cfg0.N) :
    (dat0 V c).flushed 2 t
      = ((cfg0.win 2).blk t).view.read (Elt Ideal) (Cert.ReferenceIdeal.ReadP.val_main_v30 (F := Ideal) x0 x2) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  obtain ⟨hr, hc⟩ := result_block_emb_val t p q
  show k0_pay1 (F := Ideal) (iblk0 V c 0 t) (iblk0 V c 1 t) (ix2 p q)
    = Cert.ReferenceIdeal.ReadP.val_main_v30 (F := Ideal) x0 x2 (((cfg0.win 2).blk t).view.emb (ix2 p q))
  refine (product_apply (iblk0 V c 0 t) (iblk0 V c 1 t) p q).trans ?_
  rw [Cert.ReferenceIdeal.ReadP.val_main_v30_apply]
  refine Finset.sum_congr rfl fun k _ => ?_
  have ea : iblk0 V c 0 t (ix2 p k) = x0 (Cert.ReferenceIdeal.ReadP.lidx_main_v30 (((cfg0.win 2).blk t).view.emb (ix2 p q)) k) := by
    show V c main_arg0 (((cfg0.win 0).blk t).view.emb (ix2 p k)) = _
    rw [h0]
    exact congrArg x0 (input_block_emb t p k _ hr rfl)
  have eb : iblk0 V c 1 t (ix2 k q) = x2 (Cert.ReferenceIdeal.ReadP.ridx_main_v30 (((cfg0.win 2).blk t).view.emb (ix2 p q)) k) := by
    show V c main_arg2 (((cfg0.win 1).blk t).view.emb (ix2 k q)) = _
    rw [h2]
    exact congrArg x2 (weight_block_emb t k q _ rfl hc)
  rw [ea, eb]

/-! ## The row blocks tile the array -/

/-- An entry of the result is in point t's block iff each coordinate is in the block's range on its axis. -/
theorem mem_row_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of the point r / 5000, and every point writes back. -/
theorem row_blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_row_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first region's result array: every row block of 5000 rows is that block of the input times the weight, so the
    whole array is the product of the whole input with the weight. -/
theorem final (V : (c : Dev nD) → (b : Ref sig .tc) → Buf (Elt Ideal) ((c : Thread nD τ).loc b)) (c : Dev nD)
    (x0 : (⟨Cert.ReferenceIdeal.S100000x128, .f32⟩ : BufTy).Contents (Elt Ideal)) (x2 : (⟨Cert.ReferenceIdeal.S128x128, .f32⟩ : BufTy).Contents (Elt Ideal))
    (h0 : V c main_arg0 = x0) (h2 : V c main_arg2 = x2) :
    (dat0 V c).arrAt 2 cfg0.N = Cert.ReferenceIdeal.ReadP.val_main_v30 (F := Ideal) x0 x2 :=
  (dat0 V c).arrAt_eq_of_cover 2 (Cert.ReferenceIdeal.ReadP.val_main_v30 (F := Ideal) x0 x2)
    (fun t _ => written_block_eq V c x0 x2 h0 h2 t) row_blocks_cover

end Cert.KernelIdeal.Region0

end
-- ==== Proof.Region1.lean ====
import proofs.«146957_j73504070303824_1_alg».proof.Proof.Gen.KernelIdeal.Frame
import proofs.«146957_j73504070303824_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen
/-- The two zero offsets of a whole-buffer access are the constant zero. -/
theorem hz : (![0, 0] : Fin 2 → Nat) = fun _ => 0 := funext fun a => by fin_cases a <;> rfl

/-! ## The product's operand indices: entry (r, j) pairs row r of the left factor with column j of the right one -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The result's entry as one function of three arrays -/

/-- Entry (r, q) of "add the bias row, cut at zero, multiply by the weights": the sum over k of max (A (r, k) + B (0, k)) 0 · W (k, q). -/
def entry {n : ℕ} (A : (⟨2, ![n, 128]⟩ : Shape).Idx → EReal) (B : (⟨2, ![1, 128]⟩ : Shape).Idx → EReal)
    (W : (⟨2, ![128, 128]⟩ : Shape).Idx → EReal) (r : Fin n) (q : Fin 128) : EReal :=
  ∑ k : Fin 128, max (A (ix2 r k) + B (ix2 (0 : Fin 1) k)) (Ideal.ofBits .f32 0x00000000#32) * W (ix2 k q)

/-- Two entries agree when their arrays agree on the row, the bias row and the column they read. -/
theorem entry_congr {n n' : ℕ} {A : (⟨2, ![n, 128]⟩ : Shape).Idx → EReal} {A' : (⟨2, ![n', 128]⟩ : Shape).Idx → EReal}
    {B B' : (⟨2, ![1, 128]⟩ : Shape).Idx → EReal} {W W' : (⟨2, ![128, 128]⟩ : Shape).Idx → EReal}
    {r : Fin n} {r' : Fin n'} {q : Fin 128}
    (hA : ∀ k : Fin 128, A (ix2 r k) = A' (ix2 r' k)) (hB : ∀ k : Fin 128, B (ix2 (0 : Fin 1) k) = B' (ix2 (0 : Fin 1) k))
    (hW : ∀ k : Fin 128, W (ix2 k q) = W' (ix2 k q)) : entry A B W r q = entry A' B' W' r' q := by
  unfold entry
  exact Finset.sum_congr rfl fun k _ => by rw [hA k, hB k, hW k]

/-! ## The body's arithmetic at an entry -/

/-- Entry (p, q) of the body's result on blocks a, b, w: the sum over k of max (a (p, k) + b (0, k)) 0 · w (k, q). -/
theorem pay_apply (a : Vec Ideal S5000x128 .f32) (b : Vec Ideal S1x128 .f32) (w : Vec Ideal S128x128 .f32) (p : Fin 5000) (q : Fin 128) :
    k1_pay1 (F := Ideal) a b w (ix2 p q)
      = entry a b w p q := by
  unfold k1_pay1 entry
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er, truncf_apply, truncf_apply, maximumf_apply, addf_apply, broadcast_apply, shapeCast_self, shapeCast_self,
    broadcastTo_1b_ab_apply]
  rfl

/-! ## The reference's operations at an entry -/

/-- Entry (r, q) of the reference's product, its operations read one by one down to the aggregated rows and the bias row. -/
theorem ref_apply (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (r : Fin 100000) (q : Fin 128) :
    Cert.ReferenceIdeal.ReadP.val_main_v48 (F := Ideal) x0 x1 x2 x3 x4 (ix2 r q)
      = entry (Cert.ReferenceIdeal.ReadP.val_main_v43 (F := Ideal) x0 x1 x2) (Cert.ReferenceIdeal.ReadP.val_main_v44 (F := Ideal) x3) x4 r q := by
  unfold entry
  rw [Cert.ReferenceIdeal.ReadP.val_main_v48_apply]
  refine Finset.sum_congr rfl fun k _ => ?_
  have el : Cert.ReferenceIdeal.ReadP.lidx_main_v48 (ix2 r q) k = ix2 r k := funext fun a => Fin.ext (by
    match a with
    | ⟨0, _⟩ => rfl
    | ⟨1, _⟩ => rfl)
  have er : Cert.ReferenceIdeal.ReadP.ridx_main_v48 (ix2 r q) k = ix2 k q := funext fun a => Fin.ext (by
    match a with
    | ⟨0, _⟩ => rfl
    | ⟨1, _⟩ => rfl)
  have e45 : Cert.ReferenceIdeal.ReadP.idx_main_v45 (ix2 r k) = ix2 (0 : Fin 1) k := funext fun a => Fin.ext (by
    match a with
    | ⟨0, _⟩ => rfl
    | ⟨1, _⟩ => rfl)
  rw [el, er, Cert.ReferenceIdeal.ReadP.val_main_v47_apply, Cert.ReferenceIdeal.ReadP.val_main_v46_apply,
    Cert.ReferenceIdeal.ReadP.val_main_call1_v0_apply, Cert.ReferenceIdeal.ReadP.val_main_call1_cst_apply,
    Cert.ReferenceIdeal.ReadP.val_main_v45_apply, e45]
  rfl

/-! ## Where each window's block sits in its array -/

/-- The printed index maps over the grid: the row windows are at block (t, 0), the whole operands at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ q : Fin 20, ∃ t : Fin cfg1.N, win1_3.index t = ![q.val, 0] :=
  (by decide +kernel : ∀ q : Fin 20, ∃ t : Fin grid1.N, win1_3.index t = ![q.val, 0])

/-- Row p of point t's block of the aggregated rows is row 5000 t + p of the array. -/
theorem blk0_apply (V : (c : Dev nD) → (b : Ref sig .tc) → Buf (Elt Ideal) ((c : Thread nD τ).loc b)) (c : Dev nD) (t : Fin cfg1.N) (p : Fin 5000) (k : Fin 128) (r : Fin 100000) (hr : r.val = t.val * 5000 + p.val) :
    iblk1 V c 0 t (ix2 p k) = V c main_v43 (ix2 r k) := by
  obtain ⟨e0, e1, -⟩ := idx_facts t
  unfold iblk1
  rw [View.read_apply]
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block is the whole one-row array. -/
theorem blk1_apply (V : (c : Dev nD) → (b : Ref sig .tc) → Buf (Elt Ideal) ((c : Thread nD τ).loc b)) (c : Dev nD) (t : Fin cfg1.N) (k : Fin 128) :
    iblk1 V c 1 t (ix2 (0 : Fin 1) k) = V c main_v44 (ix2 (0 : Fin 1) k) := by
  obtain ⟨-, -, e0, e1, -⟩ := idx_facts t
  unfold iblk1
  rw [View.read_apply]
  show V c main_v44 (((cfg1.win 1).blk t).view.emb (ix2 (0 : Fin 1) k)) = V c main_v44 (ix2 (0 : Fin 1) k)
  refine congrArg (V c main_v44) (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- The weight window's block is the whole weight array. -/
theorem blk2_apply (V : (c : Dev nD) → (b : Ref sig .tc) → Buf (Elt Ideal) ((c : Thread nD τ).loc b)) (c : Dev nD) (t : Fin cfg1.N) (k : Fin 128) (q : Fin 128) :
    iblk1 V c 2 t (ix2 k q) = V c main_arg4 (ix2 k q) := by
  obtain ⟨-, -, -, -, e0, e1, -⟩ := idx_facts t
  unfold iblk1
  rw [View.read_apply]
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-! ## What each point writes back -/

/-- Point t writes back block t of any array G whose entry (5000 t + p, q) is the body's result at (p, q) on point t's blocks. -/
theorem flushed_of (V : (c : Dev nD) → (b : Ref sig .tc) → Buf (Elt Ideal) ((c : Thread nD τ).loc b)) (c : Dev nD) (G : (⟨Cert.ReferenceIdeal.S100000x128, .f32⟩ : BufTy).Contents (Elt Ideal))
    (hG : ∀ (t : Fin cfg1.N) (p : Fin 5000) (q : Fin 128) (r : Fin 100000), r.val = t.val * 5000 + p.val →
      k1_pay1 (F := Ideal) (iblk1 V c 0 t) (iblk1 V c 1 t) (iblk1 V c 2 t) (ix2 p q) = G (ix2 r q)) (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨-, -, -, -, -, -, e0, e1⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hx : ((cfg1.win 3).xinj (grid1.coords t) (ix2 p q) : S5000x128.Idx) = ix2 p q := funext fun a => Fin.ext rfl
  show k1_pay1 (iblk1 V c 0 t) (iblk1 V c 1 t) (iblk1 V c 2 t) ((cfg1.win 3).xinj (grid1.coords t) (ix2 p q)) = _
  rw [hx, View.read_apply]
  have hemb : ((cfg1.win 3).blk t).view.emb (ix2 p q) = ix2 (⟨t.val * 5000 + p.val, by omega⟩ : Fin 100000) q := funext fun a => Fin.ext (by
    match a with
    | ⟨0, _⟩ => show win1_3.index t (0 : Fin 2) * 5000 + 1 * p.val = t.val * 5000 + p.val; rw [e0]; omega
    | ⟨1, _⟩ => show win1_3.index t (1 : Fin 2) * 128 + 1 * q.val = q.val; rw [e1]; omega)
  rw [hemb]
  exact hG t p q _ rfl

/-- On point t's blocks the body's result at (p, q) is entry (5000 t + p, q) of the reference's product. -/
theorem point_eq (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (h43 : V c main_v43 = Cert.ReferenceIdeal.ReadP.val_main_v43 (F := Ideal) x0 x1 x2)
    (h44 : V c main_v44 = Cert.ReferenceIdeal.ReadP.val_main_v44 (F := Ideal) x3)
    (h4 : V c main_arg4 = x4) (t : Fin cfg1.N) (p : Fin 5000) (q : Fin 128) (r : Fin 100000) (hr : r.val = t.val * 5000 + p.val) :
    k1_pay1 (F := Ideal) (iblk1 V c 0 t) (iblk1 V c 1 t) (iblk1 V c 2 t) (ix2 p q)
      = Cert.ReferenceIdeal.ReadP.val_main_v48 (F := Ideal) x0 x1 x2 x3 x4 (ix2 r q) := by
  rw [ref_apply]
  refine (pay_apply _ _ _ p q).trans (entry_congr (fun k => ?_) (fun k => ?_) (fun k => ?_))
  · rw [← h43]; exact blk0_apply V c t p k r hr
  · rw [← h44]; exact blk1_apply V c t k
  · rw [← h4]; exact blk2_apply V c t k q

/-! ## The blocks cover the array -/

/-- An entry is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row r is in the block of the point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The second region's result array: bias added to the aggregated rows, negative entries cut to zero, times the weight. -/
theorem final (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (h43 : V c main_v43 = Cert.ReferenceIdeal.ReadP.val_main_v43 (F := Ideal) x0 x1 x2)
    (h44 : V c main_v44 = Cert.ReferenceIdeal.ReadP.val_main_v44 (F := Ideal) x3)
    (h4 : V c main_arg4 = x4) :
    (dat1 V c).arrAt 3 cfg1.N = Cert.ReferenceIdeal.ReadP.val_main_v48 (F := Ideal) x0 x1 x2 x3 x4 := by
  exact (dat1 V c).arrAt_eq_of_cover 3 (Cert.ReferenceIdeal.ReadP.val_main_v48 (F := Ideal) x0 x1 x2 x3 x4)
    (fun t _ => flushed_of V c _ (fun t p q r hr => point_eq V c x0 x1 x2 x3 x4 h43 h44 h4 t p q r hr) t) cover

end Cert.KernelIdeal.Region1

end
-- ==== Proof.Region2.lean ====
import proofs.«146957_j73504070303824_1_alg».proof.Proof.Gen.KernelIdeal.Frame
import proofs.«146957_j73504070303824_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

/-! ## Small layout and reduction facts, over literal coordinates -/

theorem hz : (![0, 0] : Fin 2 → Nat) = fun _ => 0 := funext fun a => by fin_cases a <;> rfl

/-- A column `[a]` cast to `[a, 1]` and broadcast along the rows to `[a, b]` reads, at `(p, c)`, the column at `p`. -/
theorem col_bcast_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v h1 _ _ (by
      rw [Shape.rowMajor_val_one, Shape.rowMajor_val_two]
      show p.val = p.val * 1 + 0
      omega)

/-- Reducing a matrix along its columns: the index of row `j` with column `k` put back is `(j, k)`. -/
theorem lift_row {a b : ℕ} (h : (⟨2, ![a, b]⟩ : Shape).Reduces [1] ⟨1, ![a]⟩) (j : (⟨1, ![a]⟩ : Shape).Idx) (k : Fin b) :
    h.lift j k = ix2 (j 0) k :=
  funext fun ax => Fin.ext (by match ax with | ⟨0, _⟩ => rfl | ⟨1, _⟩ => rfl)

/-- A fold over the reduced axis's coordinates is the fold over the row's entries. -/
theorem fold_rows {α : Type} {a b : ℕ} (op : α → α → α) [Std.Commutative op] [Std.Associative op]
    (h : (⟨2, ![a, b]⟩ : Shape).Reduces [1] ⟨1, ![a]⟩) (L : (⟨2, ![a, b]⟩ : Shape).Idx → α) (init : α)
    (j : (⟨1, ![a]⟩ : Shape).Idx) :
    (Finset.univ : Finset (Fin ((⟨2, ![a, b]⟩ : Shape).size 1))).fold op init (L ∘ h.lift j)
      = (Finset.univ : Finset (Fin b)).fold op init (fun k => L (ix2 (j 0) k)) := by
  show (Finset.univ : Finset (Fin b)).fold op init (fun k => L (h.lift j k)) = _
  exact congrArg (fun f => (Finset.univ : Finset (Fin b)).fold op init f) (funext fun k => congrArg L (lift_row h j k))

/-- A sum over the reduced axis's coordinates is the sum of the row's entries. -/
theorem sum_rows {a b : ℕ} (h : (⟨2, ![a, b]⟩ : Shape).Reduces [1] ⟨1, ![a]⟩) (L : (⟨2, ![a, b]⟩ : Shape).Idx → EReal)
    (j : (⟨1, ![a]⟩ : Shape).Idx) :
    ∑ k : Fin ((⟨2, ![a, b]⟩ : Shape).size 1), L (h.lift j k) = ∑ k : Fin b, L (ix2 (j 0) k) := by
  show ∑ k : Fin b, L (h.lift j k) = _
  exact Finset.sum_congr rfl fun k _ => congrArg L (lift_row h j k)

/-! ## The softmax of a row of eight logits -/

/-- The guard of a row: the larger of −∞ and the row's maximum (itself folded from −∞). -/
def rowMax (l : Fin 8 → EReal) : EReal :=
  max (Ideal.ofBits .f32 0xFF800000#32) ((Finset.univ : Finset (Fin 8)).fold max (Ideal.ofBits .f32 0xFF800000#32) l)

/-- The softmax of the row `l` at column `q`: `exp (l q − guard)` over the sum of the row's such exponentials. -/
def softmaxRow (l : Fin 8 → EReal) (q : Fin 8) : EReal :=
  Ideal.div (Ideal.exp (l q - rowMax l)) (∑ k : Fin 8, Ideal.exp (l k - rowMax l))

/-- The logit of row `r`, column `j`: the row of `A` plus the bias row `B`, cut at zero, against column `j` of `W`, plus
    the output bias `C`. -/
def logit {n : ℕ} (A : (⟨2, ![n, 128]⟩ : Shape).Idx → EReal) (B : (⟨2, ![1, 128]⟩ : Shape).Idx → EReal)
    (W : (⟨2, ![128, 8]⟩ : Shape).Idx → EReal) (C : (⟨2, ![1, 8]⟩ : Shape).Idx → EReal) (r : Fin n) (j : Fin 8) : EReal :=
  (∑ k : Fin 128, max (A (ix2 r k) + B (ix2 (0 : Fin 1) k)) (Ideal.ofBits .f32 0x00000000#32) * W (ix2 k j))
    + C (ix2 (0 : Fin 1) j)

/-- Logits depend only on the entries they read. -/
theorem logit_congr {n n' : ℕ} {A : (⟨2, ![n, 128]⟩ : Shape).Idx → EReal} {A' : (⟨2, ![n', 128]⟩ : Shape).Idx → EReal}
    {B B' : (⟨2, ![1, 128]⟩ : Shape).Idx → EReal} {W W' : (⟨2, ![128, 8]⟩ : Shape).Idx → EReal}
    {C C' : (⟨2, ![1, 8]⟩ : Shape).Idx → EReal} {r : Fin n} {r' : Fin n'} {j : Fin 8}
    (hA : ∀ k : Fin 128, A (ix2 r k) = A' (ix2 r' k)) (hB : ∀ k : Fin 128, B (ix2 (0 : Fin 1) k) = B' (ix2 (0 : Fin 1) k))
    (hW : ∀ k : Fin 128, W (ix2 k j) = W' (ix2 k j)) (hC : C (ix2 (0 : Fin 1) j) = C' (ix2 (0 : Fin 1) j)) :
    logit A B W C r j = logit A' B' W' C' r' j := by
  unfold logit
  rw [hC]
  exact congrArg (· + _) (Finset.sum_congr rfl fun k _ => by rw [hA k, hB k, hW k])

/-! ## The kernel's payload at an index -/

/-- The guard column of the kernel's block, broadcast back over the columns, is the row's guard. -/
theorem guard_apply (L : FVec Ideal S5000x8 .f32) (hφ : FKind.Formats .f32)
    (hm : (0xFF800000#32 : BitVec 32) = FKind.maximumf.neutral .f32 hφ) (p : Fin 5000) (c : Fin 8) :
    broadcastTo S5000x8 (shapeCast S5000x1 (maximumf (broadcast S5000 (FloatOps.ofBits (F := Ideal) .f32 0xFF800000#32))
        (multiReduction (F := Ideal) .maximumf [1] S5000 L 0xFF800000#32 reduces_S5000x8_S5000 hφ hm)) shapeCasts_S5000_S5000x1)
      broadcasts_S5000x1_S5000x8 (ix2 p c) = rowMax (fun j => L (ix2 p j)) := by
  refine (col_bcast_apply _ shapeCasts_S5000_S5000x1 broadcasts_S5000x1_S5000x8 p c).trans ?_
  show max (Ideal.ofBits .f32 0xFF800000#32) (multiReduction (F := Ideal) .maximumf [1] S5000 L 0xFF800000#32 reduces_S5000x8_S5000 hφ hm (ix1 p)) = _
  unfold rowMax
  refine congrArg (max _) ?_
  refine (Ideal.multiReduction_maximumf_single L 0xFF800000#32 reduces_S5000x8_S5000 hφ hm (ix1 p)).trans ?_
  exact fold_rows max reduces_S5000x8_S5000 L _ (ix1 p)

/-- The softmax tail of the kernel's block, from its logits: at `(p, q)` the softmax of row `p` at column `q`. -/
theorem tail_apply (L : FVec Ideal S5000x8 .f32) (hφ : FKind.Formats .f32)
    (hm : (0xFF800000#32 : BitVec 32) = FKind.maximumf.neutral .f32 hφ)
    (ha : (0x00000000#32 : BitVec 32) = FKind.add.neutral .f32 hφ) (p : Fin 5000) (q : Fin 8) :
    divf
      (exp (subf L (broadcastTo S5000x8 (shapeCast S5000x1 (maximumf (broadcast S5000 (FloatOps.ofBits (F := Ideal) .f32 0xFF800000#32))
        (multiReduction (F := Ideal) .maximumf [1] S5000 L 0xFF800000#32 reduces_S5000x8_S5000 hφ hm)) shapeCasts_S5000_S5000x1)
        broadcasts_S5000x1_S5000x8)))
      (broadcastTo S5000x8 (shapeCast S5000x1
        (multiReduction (F := Ideal) .add [1] S5000
          (exp (subf L (broadcastTo S5000x8 (shapeCast S5000x1 (maximumf (broadcast S5000 (FloatOps.ofBits (F := Ideal) .f32 0xFF800000#32))
            (multiReduction (F := Ideal) .maximumf [1] S5000 L 0xFF800000#32 reduces_S5000x8_S5000 hφ hm)) shapeCasts_S5000_S5000x1)
            broadcasts_S5000x1_S5000x8)))
          0x00000000#32 reduces_S5000x8_S5000 hφ ha) shapeCasts_S5000_S5000x1) broadcasts_S5000x1_S5000x8)
      (ix2 p q) = softmaxRow (fun j => L (ix2 p j)) q := by
  rw [divf_apply, col_bcast_apply]
  refine (congrArg (Ideal.div _) ((Ideal.multiReduction_add_single _ 0x00000000#32 reduces_S5000x8_S5000 hφ ha (ix1 p)).trans
    (sum_rows reduces_S5000x8_S5000 _ (ix1 p)))).trans ?_
  unfold softmaxRow
  refine congrArg₂ Ideal.div ?_ (Finset.sum_congr rfl fun k _ => ?_)
  · show Ideal.exp (L (ix2 p q) - _) = _
    rw [guard_apply]
  · show Ideal.exp (L (ix2 p k) - _) = _
    rw [guard_apply]

/-! ## The kernel's product at an index -/

theorem lhs_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem lhs_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
theorem rhs_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
theorem rhs_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- The product of a block's rows against the weight, accumulated from zero, at `(p, j)`: the sum over the 128 columns. -/
theorem matmul_block_apply (x : FVec Ideal S5000x128 .bf16) (y : FVec Ideal S128x8 .bf16) (p : Fin 5000) (j : Fin 8) :
    matmul (F := Ideal) dot_S5000x128_S128x8_S5000x8_1_0_0_1_n_n none x y (constant (F := Ideal) S5000x8 .f32 0x00000000#32) (ix2 p j)
      = ∑ k : Fin 128, x (ix2 p k) * y (ix2 k j) := by
  simp only [matmul]
  rw [Ideal.matmul_constant_zero_apply, ← Equiv.sum_comp (contrEquiv1 dot_S5000x128_S128x8_S5000x8_1_0_0_1_n_n 128 rfl rfl).symm]
  refine Finset.sum_congr rfl fun k _ => ?_
  have hk := contrEquiv1_symm_val dot_S5000x128_S128x8_S5000x8_1_0_0_1_n_n 128 rfl rfl k
  have el : dot_S5000x128_S128x8_S5000x8_1_0_0_1_n_n.lhsIdx (ix2 p j) ((contrEquiv1 dot_S5000x128_S128x8_S5000x8_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x8_S5000x8_1_0_0_1_n_n.rhsIdx (ix2 p j) ((contrEquiv1 dot_S5000x128_S128x8_S5000x8_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- THE PAYLOAD AT `(p, q)`: the softmax, at column `q`, of row `p`'s logits. -/
theorem pay_apply (a : Vec Ideal S5000x128 .f32) (b : Vec Ideal S1x128 .f32) (w : Vec Ideal S128x8 .f32) (bo : Vec Ideal S1x8 .f32)
    (p : Fin 5000) (q : Fin 8) :
    k2_pay1 (F := Ideal) a b w bo (ix2 p q) = softmaxRow (logit a b w bo p) q := by
  unfold k2_pay1
  dsimp only
  refine (tail_apply _ _ _ _ p q).trans (congrArg (fun l => softmaxRow l q) (funext fun j => ?_))
  rw [addf_apply, matmul_block_apply]
  unfold logit
  refine congrArg₂ (· + ·) (Finset.sum_congr rfl fun k _ => ?_) ?_
  · rw [truncf_apply, truncf_apply, maximumf_apply, addf_apply, shapeCast_self, shapeCast_self, broadcastTo_1b_ab_apply]
    rfl
  · rw [shapeCast_self, broadcastTo_1b_ab_apply]

/-! ## The reference at an index -/

section Reference

open Cert.ReferenceIdeal.ReadP

theorem lidx66 (r : Fin 100000) (j : Fin 8) (k : Fin 128) : lidx_main_v66 (ix2 r j) k = ix2 r k :=
  funext fun a => Fin.ext (by match a with | ⟨0, _⟩ => rfl | ⟨1, _⟩ => rfl)
theorem ridx66 (r : Fin 100000) (j : Fin 8) (k : Fin 128) : ridx_main_v66 (ix2 r j) k = ix2 k j :=
  funext fun a => Fin.ext (by match a with | ⟨0, _⟩ => rfl | ⟨1, _⟩ => rfl)
theorem idx68 (r : Fin 100000) (j : Fin 8) : idx_main_v68 (ix2 r j) = ix2 (0 : Fin 1) j :=
  funext fun a => Fin.ext (by match a with | ⟨0, _⟩ => rfl | ⟨1, _⟩ => rfl)
theorem idx63 (r : Fin 100000) (k : Fin 128) : idx_main_v63 (ix2 r k) = ix2 (0 : Fin 1) k :=
  funext fun a => Fin.ext (by match a with | ⟨0, _⟩ => rfl | ⟨1, _⟩ => rfl)
theorem idx7374 (r : Fin 100000) (c : Fin 8) : idx_main_v73 (idx_main_v74 (ix2 r c)) = ix1 r :=
  funext fun a => Fin.ext (by match a with | ⟨0, _⟩ => rfl)
theorem idx7879 (r : Fin 100000) (c : Fin 8) : idx_main_v78 (idx_main_v79 (ix2 r c)) = ix1 r :=
  funext fun a => Fin.ext (by match a with | ⟨0, _⟩ => rfl)
theorem idx77 (r : Fin 100000) (k : Fin 8) : idx_main_v77 (ix1 r) k = ix2 r k :=
  funext fun a => Fin.ext (by match a with | ⟨0, _⟩ => rfl | ⟨1, _⟩ => rfl)

theorem red_ref : Cert.ReferenceIdeal.S100000x8.Reduces [1] Cert.ReferenceIdeal.S100000 := by decide

/-- The host's maximum over the columns, from an initial value, at row `r`: the fold of `max` over the row's entries. -/
theorem host_rowMax (L : FVec Ideal Cert.ReferenceIdeal.S100000x8 .f32) (init : Cert.ReferenceIdeal.S_.Idx → Ideal .f32)
    (h' : Cert.ReferenceIdeal.S100000x8.ReducesTo [1] Cert.ReferenceIdeal.S100000) (hu : 0 < Cert.ReferenceIdeal.S_.numel)
    (r : Fin 100000) :
    Host.reduce FloatOps.maximumf L init h' hu (ix1 r)
      = (Finset.univ : Finset (Fin 8)).fold max (init (Shape.Idx.first hu)) (fun k => L (ix2 r k)) := by
  rw [Host.reduce_eq_fold_single FloatOps.maximumf L _ h' red_ref hu]
  exact fold_rows max red_ref L _ (ix1 r)

/-- The reference's logits at `(r, j)`. -/
theorem ref_logit (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal)) (r : Fin 100000) (j : Fin 8) :
    val_main_v69 (F := Ideal) x0 x1 x2 x3 x4 x5 x6 x7 (ix2 r j)
      = logit (val_main_v61 (F := Ideal) x0 x1 x2 x3 x4) (val_main_v62 (F := Ideal) x5) x6 (val_main_v67 (F := Ideal) x7) r j := by
  have hs : ∀ k : Fin 128, val_main_v65 (F := Ideal) x0 x1 x2 x3 x4 x5 (lidx_main_v66 (ix2 r j) k) * x6 (ridx_main_v66 (ix2 r j) k)
      = max (val_main_v61 (F := Ideal) x0 x1 x2 x3 x4 (ix2 r k) + val_main_v62 (F := Ideal) x5 (ix2 (0 : Fin 1) k)) (Ideal.ofBits .f32 0x00000000#32) * x6 (ix2 k j) := fun k => by
    rw [lidx66, ridx66, val_main_v65_apply, val_main_v64_apply, val_main_v63_apply, idx63, val_main_call2_v0_apply,
      val_main_call2_cst_apply, Ideal.maximumf_def, Ideal.addf_def, Ideal.ofBits_def]
  rw [val_main_v69_apply, val_main_v66_apply, val_main_v68_apply, idx68, Ideal.addf_def, Finset.sum_congr rfl fun k _ => hs k]
  rfl

/-- The reference's guard, broadcast over the columns, is the row's guard. -/
theorem ref_guard (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal)) (r : Fin 100000) (c : Fin 8) :
    val_main_v74 (F := Ideal) x0 x1 x2 x3 x4 x5 x6 x7 (ix2 r c) = rowMax (fun j => val_main_v69 (F := Ideal) x0 x1 x2 x3 x4 x5 x6 x7 (ix2 r j)) := by
  rw [val_main_v74_apply, val_main_v73_apply, idx7374, val_main_v72_apply, val_main_v71_apply, val_main_cst_13_apply,
    Ideal.maximumf_def, Ideal.ofBits_def]
  unfold val_main_v70
  rw [host_rowMax (val_main_v69 (F := Ideal) x0 x1 x2 x3 x4 x5 x6 x7) _ _ _ r, val_main_cst_12_apply, Ideal.ofBits_def]
  rfl

/-- The reference's result at `(r, q)`: the softmax, at column `q`, of row `r`'s logits. -/
theorem ref_tail (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal)) (r : Fin 100000) (q : Fin 8) :
    val_main_v80 (F := Ideal) x0 x1 x2 x3 x4 x5 x6 x7 (ix2 r q) = softmaxRow (fun j => val_main_v69 (F := Ideal) x0 x1 x2 x3 x4 x5 x6 x7 (ix2 r j)) q := by
  have hexp : ∀ k : Fin 8, val_main_v76 (F := Ideal) x0 x1 x2 x3 x4 x5 x6 x7 (ix2 r k)
      = Ideal.exp (val_main_v69 (F := Ideal) x0 x1 x2 x3 x4 x5 x6 x7 (ix2 r k) - rowMax (fun j => val_main_v69 (F := Ideal) x0 x1 x2 x3 x4 x5 x6 x7 (ix2 r j))) := fun k => by
    rw [val_main_v76_apply, val_main_v75_apply, ref_guard, Ideal.hostUnary_exp_def, Ideal.subf_def]
  have hsum : ∀ k : Fin 8, val_main_v76 (F := Ideal) x0 x1 x2 x3 x4 x5 x6 x7 (idx_main_v77 (ix1 r) k)
      = Ideal.exp (val_main_v69 (F := Ideal) x0 x1 x2 x3 x4 x5 x6 x7 (ix2 r k) - rowMax (fun j => val_main_v69 (F := Ideal) x0 x1 x2 x3 x4 x5 x6 x7 (ix2 r j))) := fun k => by
    rw [idx77, hexp]
  rw [val_main_v80_apply, val_main_v79_apply, val_main_v78_apply, idx7879, val_main_v77_apply, val_main_cst_14_apply, hexp,
    Finset.sum_congr rfl fun k _ => hsum k, Ideal.hostDivf_def, Ideal.ofBits_def, Ideal.ofBits_zero_f32, zero_add]
  rfl

/-- THE REFERENCE AT `(r, q)`. -/
theorem ref_apply (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal)) (r : Fin 100000) (q : Fin 8) :
    val_main_v80 (F := Ideal) x0 x1 x2 x3 x4 x5 x6 x7 (ix2 r q)
      = softmaxRow (logit (val_main_v61 (F := Ideal) x0 x1 x2 x3 x4) (val_main_v62 (F := Ideal) x5) x6 (val_main_v67 (F := Ideal) x7) r) q :=
  (ref_tail x0 x1 x2 x3 x4 x5 x6 x7 r q).trans (congrArg (fun l => softmaxRow l q) (funext fun j => ref_logit x0 x1 x2 x3 x4 x5 x6 x7 r j))

end Reference

/-! ## From blocks to the array -/

/-- The printed index maps, decided over the grid: the row windows move with the point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every row block of the result is some point's. -/
theorem idx_onto : ∀ q : Fin 20, ∃ t : Fin cfg2.N, win2_4.index t = ![q.val, 0] :=
  (by decide +kernel : ∀ q : Fin 20, ∃ t : Fin grid2.N, win2_4.index t = ![q.val, 0])

/-- The activations' block at point `t` is rows `5000 t …` of the array. -/
theorem blk0_read (V : (c : Dev nD) → (b : Ref sig .tc) → Buf (Elt Ideal) ((c : Thread nD τ).loc b)) (c : Dev nD) (t : Fin cfg2.N) (p : Fin 5000) (k : Fin 128) (r : Fin 100000) (hr : r.val = t.val * 5000 + p.val) :
    iblk2 V c 0 t (ix2 p k) = V c main_v58 (ix2 r k) := by
  obtain ⟨e0, e1, -⟩ := idx_facts t
  show V c main_v58 (((cfg2.win 0).blk t).view.emb (ix2 p k)) = V c main_v58 (ix2 r k)
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The bias row's block is the whole row. -/
theorem blk1_read (V : (c : Dev nD) → (b : Ref sig .tc) → Buf (Elt Ideal) ((c : Thread nD τ).loc b)) (c : Dev nD) (t : Fin cfg2.N) (k : Fin 128) :
    iblk2 V c 1 t (ix2 (0 : Fin 1) k) = V c main_v59 (ix2 (0 : Fin 1) k) := by
  obtain ⟨-, -, e2, e3, -⟩ := idx_facts t
  show V c main_v59 (((cfg2.win 1).blk t).view.emb (ix2 (0 : Fin 1) k)) = V c main_v59 (ix2 (0 : Fin 1) k)
  congr 1
  funext a
  apply Fin.ext
  match a with
  | ⟨0, _⟩ => show win2_1.index t (0 : Fin 2) * 1 + 1 * 0 = 0; omega
  | ⟨1, _⟩ => show win2_1.index t (1 : Fin 2) * 128 + 1 * k.val = k.val; omega

/-- The weight's block is the whole weight. -/
theorem blk2_read (V : (c : Dev nD) → (b : Ref sig .tc) → Buf (Elt Ideal) ((c : Thread nD τ).loc b)) (c : Dev nD) (t : Fin cfg2.N) (k : Fin 128) (j : Fin 8) :
    iblk2 V c 2 t (ix2 k j) = V c main_arg6 (ix2 k j) := by
  obtain ⟨-, -, -, -, e4, e5, -⟩ := idx_facts t
  show V c main_arg6 (((cfg2.win 2).blk t).view.emb (ix2 k j)) = V c main_arg6 (ix2 k j)
  congr 1
  funext a
  apply Fin.ext
  match a with
  | ⟨0, _⟩ => show win2_2.index t (0 : Fin 2) * 128 + 1 * k.val = k.val; omega
  | ⟨1, _⟩ => show win2_2.index t (1 : Fin 2) * 8 + 1 * j.val = j.val; omega

/-- The output bias row's block is the whole row. -/
theorem blk3_read (V : (c : Dev nD) → (b : Ref sig .tc) → Buf (Elt Ideal) ((c : Thread nD τ).loc b)) (c : Dev nD) (t : Fin cfg2.N) (j : Fin 8) :
    iblk2 V c 3 t (ix2 (0 : Fin 1) j) = V c main_v60 (ix2 (0 : Fin 1) j) := by
  obtain ⟨-, -, -, -, -, -, e6, e7, -⟩ := idx_facts t
  show V c main_v60 (((cfg2.win 3).blk t).view.emb (ix2 (0 : Fin 1) j)) = V c main_v60 (ix2 (0 : Fin 1) j)
  congr 1
  funext a
  apply Fin.ext
  match a with
  | ⟨0, _⟩ => show win2_3.index t (0 : Fin 2) * 1 + 1 * 0 = 0; omega
  | ⟨1, _⟩ => show win2_3.index t (1 : Fin 2) * 8 + 1 * j.val = j.val; omega

/-- WHAT POINT `t` WRITES BACK is block `t` of the reference's result. -/
theorem flushed_eq (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal))
    (h58 : V c main_v58 = Cert.ReferenceIdeal.ReadP.val_main_v61 (F := Ideal) x0 x1 x2 x3 x4)
    (h59 : V c main_v59 = Cert.ReferenceIdeal.ReadP.val_main_v62 (F := Ideal) x5)
    (h6 : V c main_arg6 = x6)
    (h60 : V c main_v60 = Cert.ReferenceIdeal.ReadP.val_main_v67 (F := Ideal) x7) (t : Fin cfg2.N) :
    (dat2 V c).flushed 4 t
      = ((cfg2.win 4).blk t).view.read (Elt Ideal) (Cert.ReferenceIdeal.ReadP.val_main_v80 (F := Ideal) x0 x1 x2 x3 x4 x5 x6 x7) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz, View.ld_unit_zero (S := S128x8) hz,
    View.ld_unit_zero (S := S1x8) hz]
  obtain ⟨-, -, -, -, -, -, -, -, e8, e9⟩ := idx_facts t
  have ht : t.val < 20 := lt_of_lt_of_eq t.isLt N_2
  funext j
  obtain ⟨p, q, rfl⟩ : ∃ (p : Fin 5000) (q : Fin 8), j = ix2 p q := ⟨j 0, j 1, eq_ix2 j⟩
  have hi : ((cfg2.win 4).blk t).view.emb (ix2 p q) = ix2 (⟨t.val * 5000 + p.val, by have := p.isLt; omega⟩ : Fin 100000) q := by
    funext a
    apply Fin.ext
    match a with
    | ⟨0, _⟩ => show win2_4.index t (0 : Fin 2) * 5000 + 1 * p.val = t.val * 5000 + p.val; omega
    | ⟨1, _⟩ => show win2_4.index t (1 : Fin 2) * 8 + 1 * q.val = q.val; omega
  show k2_pay1 (F := Ideal) (iblk2 V c 0 t) (iblk2 V c 1 t) (iblk2 V c 2 t) (iblk2 V c 3 t) (ix2 p q)
    = Cert.ReferenceIdeal.ReadP.val_main_v80 (F := Ideal) x0 x1 x2 x3 x4 x5 x6 x7 (((cfg2.win 4).blk t).view.emb (ix2 p q))
  rw [hi, ref_apply]
  refine (pay_apply _ _ _ _ p q).trans (congrArg (fun l => softmaxRow l q) (funext fun j => ?_))
  refine logit_congr (fun k => ?_) (fun k => ?_) (fun k => ?_) ?_
  · rw [← h58]; exact blk0_read V c t p k _ rfl
  · rw [← h59]; exact blk1_read V c t k
  · rw [← h6]; exact blk2_read V c t k j
  · rw [← h60]; exact blk3_read V c t j

/-- An index of the result is in point `t`'s block iff each coordinate is in the block's range on its axis. -/
theorem mem_blk (t : Fin cfg2.N) (i : S100000x8.Idx) :
    i ∈ ((cfg2.win 4).blk t).view.set ↔ ∀ a : Fin 2, win2_4.index t a * S5000x8.size a ≤ (i a).val ∧ (i a).val < win2_4.index t a * S5000x8.size a + S5000x8.size a := by
  show i ∈ ((View.whole main_v61).slice (win2_4.rect t)).set ↔ _
  rw [View.set_slice_whole, Rect.mem_set_unit]
  exact Iff.rfl

/-- Every index of the result is in some point's block: row `r` in the block of point `r / 5000`. -/
theorem cover (i : S100000x8.Idx) : ∃ t : Fin cfg2.N, (cfg2.win 4).flush t = true ∧ i ∈ ((cfg2.win 4).blk t).view.set := by
  have hi0 : (i 0).val < 100000 := (i 0).isLt
  have hi1 : (i 1).val < 8 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 8 ≤ (i 1).val ∧ (i 1).val < win2_4.index t (1 : Fin 2) * 8 + 8; omega

/-- The third region's result array: bias, cut at zero, the output weight and bias, then the softmax of every row. -/
theorem final (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x8, .f32⟩ : BufTy).Contents (Elt Ideal)) (x7 : (⟨Cert.ReferenceIdeal.S8, .f32⟩ : BufTy).Contents (Elt Ideal))
    (h58 : V c main_v58 = Cert.ReferenceIdeal.ReadP.val_main_v61 (F := Ideal) x0 x1 x2 x3 x4)
    (h59 : V c main_v59 = Cert.ReferenceIdeal.ReadP.val_main_v62 (F := Ideal) x5)
    (h6 : V c main_arg6 = x6)
    (h60 : V c main_v60 = Cert.ReferenceIdeal.ReadP.val_main_v67 (F := Ideal) x7) :
    (dat2 V c).arrAt 4 cfg2.N = Cert.ReferenceIdeal.ReadP.val_main_v80 (F := Ideal) x0 x1 x2 x3 x4 x5 x6 x7 :=
  (dat2 V c).arrAt_eq_of_cover 4 (Cert.ReferenceIdeal.ReadP.val_main_v80 (F := Ideal) x0 x1 x2 x3 x4 x5 x6 x7)
    (fun t _ => flushed_eq V c x0 x1 x2 x3 x4 x5 x6 x7 h58 h59 h6 h60 t) cover

end Cert.KernelIdeal.Region2

end
-- ==== Proof.Chain.lean ====
import proofs.«146957_j73504070303824_1_alg».proof.Proof.Gen.KernelIdeal.Frame
import proofs.«146957_j73504070303824_1_alg».proof.Proof.RefRead
import proofs.«146957_j73504070303824_1_alg».proof.Proof.Stretch
import proofs.«146957_j73504070303824_1_alg».proof.Proof.Region0
import proofs.«146957_j73504070303824_1_alg».proof.Proof.Region1
import proofs.«146957_j73504070303824_1_alg».proof.Proof.Region2

set_option maxRecDepth 16384

noncomputable section

/-! The program's buffers at every boundary between its host stretches and its three kernel regions, each named as the
    stage of the reference that computes the same array from the same arguments: a stretch's results by the stretch's
    lemma from the boundary before it, a region's result array by the region's value lemma, everything else carried. -/

namespace Cert.KernelIdeal.Chain

open Cert.KernelIdeal Cert.KernelIdeal.Gen Cert.KernelIdeal.Stretch
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Up to the first region -/

theorem W1_v3 : W1 m ρ c (Proc.devRef .tc main_v3) = val_main_v3 (F := Ideal) (m ((c : Thread nD τ).loc main_arg1)) := s0_v3 (W0 m ρ c) _ rfl
theorem W1_v6 : W1 m ρ c (Proc.devRef .tc main_v6) = val_main_v6 (F := Ideal) (m ((c : Thread nD τ).loc main_arg1)) := s0_v6 (W0 m ρ c) _ rfl
theorem W1_v12 : W1 m ρ c (Proc.devRef .tc main_v12) = val_main_v12 (F := Ideal) (m ((c : Thread nD τ).loc main_arg1)) := s0_v12 (W0 m ρ c) _ rfl
theorem W1_v13 : W1 m ρ c (Proc.devRef .tc main_v13) = val_main_v13 (F := Ideal) (m ((c : Thread nD τ).loc main_arg1)) := s0_v13 (W0 m ρ c) _ rfl
theorem W1_cst2 : W1 m ρ c (Proc.devRef .tc main_cst_2) = val_main_cst_2 (F := Ideal) := s0_cst2 (W0 m ρ c)

theorem W2_v14 : W2 m ρ c (Proc.devRef .tc main_v14) = val_main_v14 (F := Ideal) (m ((c : Thread nD τ).loc main_arg1)) :=
  s01_v14 (W1 m ρ c) _ (W1_v12 m ρ c) (W1_v13 m ρ c) (W1_cst2 m ρ c)
theorem W2_v3 : W2 m ρ c (Proc.devRef .tc main_v3) = val_main_v3 (F := Ideal) (m ((c : Thread nD τ).loc main_arg1)) := (k0_1_v3 (W1 m ρ c)).trans (W1_v3 m ρ c)
theorem W2_v6 : W2 m ρ c (Proc.devRef .tc main_v6) = val_main_v6 (F := Ideal) (m ((c : Thread nD τ).loc main_arg1)) := (k0_1_v6 (W1 m ρ c)).trans (W1_v6 m ρ c)

/-- The edge weights. -/
theorem W3_v29 : W3 m ρ c (Proc.devRef .tc main_v29) = val_main_v29 (F := Ideal) (m ((c : Thread nD τ).loc main_arg1)) :=
  s02_v29 (W2 m ρ c) _ (W2_v14 m ρ c) (W2_v3 m ρ c) (W2_v6 m ρ c)
theorem W3_v3 : W3 m ρ c (Proc.devRef .tc main_v3) = val_main_v3 (F := Ideal) (m ((c : Thread nD τ).loc main_arg1)) := (k0_2_v3 (W2 m ρ c)).trans (W2_v3 m ρ c)
theorem W3_v6 : W3 m ρ c (Proc.devRef .tc main_v6) = val_main_v6 (F := Ideal) (m ((c : Thread nD τ).loc main_arg1)) := (k0_2_v6 (W2 m ρ c)).trans (W2_v6 m ρ c)
theorem W3_arg0 : W3 m ρ c (Proc.devRef .tc main_arg0) = (m ((c : Thread nD τ).loc main_arg0)) :=
  (k0_2_arg0 (W2 m ρ c)).trans ((k0_1_arg0 (W1 m ρ c)).trans (k0_arg0 (W0 m ρ c)))
theorem W3_arg2 : W3 m ρ c (Proc.devRef .tc main_arg2) = (m ((c : Thread nD τ).loc main_arg2)) :=
  (k0_2_arg2 (W2 m ρ c)).trans ((k0_1_arg2 (W1 m ρ c)).trans (k0_arg2 (W0 m ρ c)))
theorem W3_arg3 : W3 m ρ c (Proc.devRef .tc main_arg3) = (m ((c : Thread nD τ).loc main_arg3)) :=
  (k0_2_arg3 (W2 m ρ c)).trans ((k0_1_arg3 (W1 m ρ c)).trans (k0_arg3 (W0 m ρ c)))
theorem W3_arg4 : W3 m ρ c (Proc.devRef .tc main_arg4) = (m ((c : Thread nD τ).loc main_arg4)) :=
  (k0_2_arg4 (W2 m ρ c)).trans ((k0_1_arg4 (W1 m ρ c)).trans (k0_arg4 (W0 m ρ c)))
theorem W3_arg5 : W3 m ρ c (Proc.devRef .tc main_arg5) = (m ((c : Thread nD τ).loc main_arg5)) :=
  (k0_2_arg5 (W2 m ρ c)).trans ((k0_1_arg5 (W1 m ρ c)).trans (k0_arg5 (W0 m ρ c)))
theorem W3_arg6 : W3 m ρ c (Proc.devRef .tc main_arg6) = (m ((c : Thread nD τ).loc main_arg6)) :=
  (k0_2_arg6 (W2 m ρ c)).trans ((k0_1_arg6 (W1 m ρ c)).trans (k0_arg6 (W0 m ρ c)))
theorem W3_arg7 : W3 m ρ c (Proc.devRef .tc main_arg7) = (m ((c : Thread nD τ).loc main_arg7)) :=
  (k0_2_arg7 (W2 m ρ c)).trans ((k0_1_arg7 (W1 m ρ c)).trans (k0_arg7 (W0 m ρ c)))

/-! ## The first region and the stretch after it -/

/-- The first region leaves the product of the features with the first weight. -/
theorem W4_v30 : W4 m ρ c (Proc.devRef .tc main_v30) = val_main_v30 (F := Ideal) (m ((c : Thread nD τ).loc main_arg0)) (m ((c : Thread nD τ).loc main_arg2)) :=
  (W4_arr m ρ c 2).trans (Region0.final (V3 m ρ) c _ _ (W3_arg0 m ρ c) (W3_arg2 m ρ c))
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v29 (F := Ideal) (m ((c : Thread nD τ).loc main_arg1)) := (W4_of_ne m ρ c main_v29 (by decide)).trans (W3_v29 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-- The first layer's aggregate. -/
theorem W5_v43 : W5 m ρ c (Proc.devRef .tc main_v43) = val_main_v43 (F := Ideal) (m ((c : Thread nD τ).loc main_arg0)) (m ((c : Thread nD τ).loc main_arg1)) (m ((c : Thread nD τ).loc main_arg2)) :=
  s1_v43 (W4 m ρ c) _ _ _ (W4_v30 m ρ c) (W4_v3 m ρ c) (W4_v6 m ρ c) (W4_v29 m ρ c)
theorem W5_v44 : W5 m ρ c (Proc.devRef .tc main_v44) = val_main_v44 (F := Ideal) (m ((c : Thread nD τ).loc main_arg3)) := s1_v44 (W4 m ρ c) _ (W4_arg3 m ρ c)
theorem W5_v3 : W5 m ρ c (Proc.devRef .tc main_v3) = val_main_v3 (F := Ideal) (m ((c : Thread nD τ).loc main_arg1)) := (k1_v3 (W4 m ρ c)).trans (W4_v3 m ρ c)
theorem W5_v6 : W5 m ρ c (Proc.devRef .tc main_v6) = val_main_v6 (F := Ideal) (m ((c : Thread nD τ).loc main_arg1)) := (k1_v6 (W4 m ρ c)).trans (W4_v6 m ρ c)
theorem W5_v29 : W5 m ρ c (Proc.devRef .tc main_v29) = val_main_v29 (F := Ideal) (m ((c : Thread nD τ).loc main_arg1)) := (k1_v29 (W4 m ρ c)).trans (W4_v29 m ρ c)
theorem W5_arg4 : W5 m ρ c (Proc.devRef .tc main_arg4) = (m ((c : Thread nD τ).loc main_arg4)) := (k1_arg4 (W4 m ρ c)).trans (W4_arg4 m ρ c)
theorem W5_arg5 : W5 m ρ c (Proc.devRef .tc main_arg5) = (m ((c : Thread nD τ).loc main_arg5)) := (k1_arg5 (W4 m ρ c)).trans (W4_arg5 m ρ c)
theorem W5_arg6 : W5 m ρ c (Proc.devRef .tc main_arg6) = (m ((c : Thread nD τ).loc main_arg6)) := (k1_arg6 (W4 m ρ c)).trans (W4_arg6 m ρ c)
theorem W5_arg7 : W5 m ρ c (Proc.devRef .tc main_arg7) = (m ((c : Thread nD τ).loc main_arg7)) := (k1_arg7 (W4 m ρ c)).trans (W4_arg7 m ρ c)

/-! ## The second region and the stretch after it -/

/-- The second region leaves the second layer's product. -/
theorem W6_v45 : W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans (Region1.final (V5 m ρ) c _ _ _ _ _ (W5_v43 m ρ c) (W5_v44 m ρ c) (W5_arg4 m ρ c))
theorem W6_v3 : W6 m ρ c (Proc.devRef .tc main_v3) = val_main_v3 (F := Ideal) (m ((c : Thread nD τ).loc main_arg1)) := (W6_of_ne m ρ c main_v3 (by decide)).trans (W5_v3 m ρ c)
theorem W6_v6 : W6 m ρ c (Proc.devRef .tc main_v6) = val_main_v6 (F := Ideal) (m ((c : Thread nD τ).loc main_arg1)) := (W6_of_ne m ρ c main_v6 (by decide)).trans (W5_v6 m ρ c)
theorem W6_v29 : W6 m ρ c (Proc.devRef .tc main_v29) = val_main_v29 (F := Ideal) (m ((c : Thread nD τ).loc main_arg1)) := (W6_of_ne m ρ c main_v29 (by decide)).trans (W5_v29 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)

/-- The second layer's aggregate. -/
theorem W7_v58 : W7 m ρ c (Proc.devRef .tc main_v58) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s2_v58 (W6 m ρ c) _ _ _ _ _ (W6_v45 m ρ c) (W6_v3 m ρ c) (W6_v6 m ρ c) (W6_v29 m ρ c)
theorem W7_v59 : W7 m ρ c (Proc.devRef .tc main_v59) = val_main_v62 (F := Ideal) (m ((c : Thread nD τ).loc main_arg5)) := s2_v59 (W6 m ρ c) _ (W6_arg5 m ρ c)
theorem W7_v60 : W7 m ρ c (Proc.devRef .tc main_v60) = val_main_v67 (F := Ideal) (m ((c : Thread nD τ).loc main_arg7)) := s2_v60 (W6 m ρ c) _ (W6_arg7 m ρ c)
theorem W7_arg6 : W7 m ρ c (Proc.devRef .tc main_arg6) = (m ((c : Thread nD τ).loc main_arg6)) := (k2_arg6 (W6 m ρ c)).trans (W6_arg6 m ρ c)

/-! ## The third region: the result -/

/-- The program's result array is the reference's last stage of the launch arguments. -/
theorem result : W8 m ρ c (Proc.devRef .tc main_v61)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans (Region2.final (V7 m ρ) c _ _ _ _ _ _ _ _ (W7_v58 m ρ c) (W7_v59 m ρ c) (W7_arg6 m ρ c) (W7_v60 m ρ c))

end Cert.KernelIdeal.Chain

end
-- ==== Proof.lean ====
/- A two-layer graph convolution with a softmax head, over 100000 nodes, 128 features and 1600000 edges plus one self loop
   per node. The kernel program runs the three dense stages as kernels over blocks of 5000 rows — features times the first
   weight; bias, cut at zero, times the second weight; bias, cut at zero, times the output weight, output bias, softmax of
   every row — and between them, on the host, gathers the rows along the edges, scales each by the product of its end points'
   inverse square-root degrees and adds them into the destination rows. The reference does the same with whole-array matrix
   products. At the extended reals a change of float format is the identity and a block of a matrix product is the product of
   the block, so stage by stage the two programs hold the same arrays: each region's result array is the reference's stage
   (Region0, Region1, Region2), the host stretches are the reference's own operations (Chain), and the result arrays are one
   function of the arguments. Nothing is named by the idealization, so `preserves` is trivial; no law used needs finiteness. -/
import proofs.«146957_j73504070303824_1_alg».proof.Defs
import proofs.«146957_j73504070303824_1_alg».proof.Proof.Gen.Kernel
import proofs.«146957_j73504070303824_1_alg».proof.Proof.Gen.Kernel.Skeleton
import proofs.«146957_j73504070303824_1_alg».proof.Proof.Gen.Kernel.Launch
import proofs.«146957_j73504070303824_1_alg».proof.Proof.Gen.Kernel.Points
import proofs.«146957_j73504070303824_1_alg».proof.Proof.Gen.Kernel.Frame
import proofs.«146957_j73504070303824_1_alg».proof.Proof.Gen.KernelIdeal
import proofs.«146957_j73504070303824_1_alg».proof.Proof.Gen.KernelIdeal.Skeleton
import proofs.«146957_j73504070303824_1_alg».proof.Proof.Gen.KernelIdeal.Launch
import proofs.«146957_j73504070303824_1_alg».proof.Proof.Gen.KernelIdeal.Points
import proofs.«146957_j73504070303824_1_alg».proof.Proof.Gen.KernelIdeal.Frame
import proofs.«146957_j73504070303824_1_alg».proof.Proof.Gen.ReferenceIdeal
import proofs.«146957_j73504070303824_1_alg».proof.Proof.Gen.Pre_finite_inputs
import proofs.«146957_j73504070303824_1_alg».proof.Proof.RefRun
import proofs.«146957_j73504070303824_1_alg».proof.Proof.RefRead
import proofs.«146957_j73504070303824_1_alg».proof.Proof.KRun
import proofs.«146957_j73504070303824_1_alg».proof.Proof.Chain
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the softmax rows of the second layer's output, one function of the arguments: the kernel
    program's result array is the reference's last stage of its own arguments, the reference's run ends at that stage of
    its arguments, and the arguments agree. -/
theorem algebraic : Cert.algebraic_KernelIdeal_ReferenceIdeal := by
  intro m ρ m' ρ' _ hagree
  refine ⟨fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v80_eq]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
